-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S65536 : Shape := ⟨1, ![65536]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S65536x1024 .f32) (main_arg1 : IVec S65536 32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_c_0 : IVec S_ 32 := constantI S_ 32 0#32
  let main_v4 : IVec S65536 32 := broadcastInDim S65536 ![] bcast_S_S65536 main_c_0
  let main_v5 : IVec S65536 1 := cmpi .sge main_arg1 main_v4
  let main_c_1 : IVec S_ 32 := constantI S_ 32 1024#32
  let main_v6 : IVec S65536 32 := broadcastInDim S65536 ![] bcast_S_S65536 main_c_1
  let main_v7 : IVec S65536 1 := cmpi .slt main_arg1 main_v6
  let main_v8 : IVec S65536 1 := andi main_v5 main_v7
  let main_c_2 : IVec S_ 1 := constantI S_ 1 1#1
  let main_v9 : IVec S_ 1 := (fun x v => Host.reduce IntOp.andi x v reducesTo_S65536_S_d0 h_S_) main_v8 main_c_2
  let main_v10 : IVec S_ 1 := andi main_v3 main_v9
  main_v10
-- ==== Kernel.lean ====
abbrev S65536x1024 : Shape := ⟨2, ![65536, 1024]⟩
abbrev S65536 : Shape := ⟨1, ![65536]⟩
abbrev S_ : Shape := ⟨0, ![]⟩
abbrev S65536x1 : Shape := ⟨2, ![65536, 1]⟩
abbrev S65536x128 : Shape := ⟨2, ![65536, 128]⟩
abbrev S1024x1024 : Shape := ⟨2, ![1024, 1024]⟩
abbrev S1024x1 : Shape := ⟨2, ![1024, 1]⟩
abbrev S1024x128 : Shape := ⟨2, ![1024, 128]⟩
abbrev S1024 : Shape := ⟨1, ![1024]⟩

abbrev nBuf : Space → Nat
  | .hbm => 16
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S65536, .i32⟩
  | .hbm, ⟨6, _⟩ => ⟨S65536, .i32⟩
  | .hbm, ⟨7, _⟩ => ⟨S_, .i32⟩
  | .hbm, ⟨8, _⟩ => ⟨S65536, .i32⟩
  | .hbm, ⟨9, _⟩ => ⟨S65536, .i32⟩
  | .hbm, ⟨10, _⟩ => ⟨S65536x1, .i32⟩
  | .hbm, ⟨11, _⟩ => ⟨S65536x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x128, .f32⟩
  | .local _ .vmem, ⟨5, _⟩ => ⟨S1024x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S65536 : S_.BroadcastsInDim S65536 (![] : Fin 0 → Fin S65536.rank)
  shapeCasts_S65536_S65536x1 : S65536.ShapeCasts S65536x1
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  natLt_1_32 : 1 < 32
  reduces_S1024x1024_S1024 : S1024x1024.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  reducesTo_S65536x128_S_d0_1 : S65536x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S65536x1.size a
  hwx0_1 : ∀ i : grid0.Coords, EltTy.bits .i32 = 32 ∨ (Rect.block (s := S65536x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S65536x128.size a
  hwx0_2 : ∀ i : grid0.Coords, EltTy.bits .f32 = 32 ∨ (Rect.block (s := S65536x128) S1024x128.size (cc0_transform_2 i) (hinb0_2 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S65536 : Shape := ⟨1, ![65536]⟩
abbrev S65536x1 : Shape := ⟨2, ![65536, 1]⟩
abbrev S_ : Shape := ⟨0, ![]⟩
abbrev S65536x1x1 : Shape := ⟨3, ![65536, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S65536x1, .i32⟩
  | .hbm, ⟨3, _⟩ => ⟨S_, .i32⟩
  | .hbm, ⟨4, _⟩ => ⟨S65536x1, .i32⟩
  | .hbm, ⟨5, _⟩ => ⟨S65536x1, .i1⟩
  | .hbm, ⟨6, _⟩ => ⟨S_, .i32⟩
  | .hbm, ⟨7, _⟩ => ⟨S65536x1, .i32⟩
  | .hbm, ⟨8, _⟩ => ⟨S65536x1, .i32⟩
  | .hbm, ⟨9, _⟩ => ⟨S65536x1, .i32⟩
  | .hbm, ⟨10, _⟩ => ⟨S65536x1x1, .i32⟩
  | .hbm, ⟨11, _⟩ => ⟨S1, .i32⟩
  | .hbm, ⟨12, _⟩ => ⟨S_, .i32⟩
  | .hbm, ⟨13, _⟩ => ⟨S65536x1x1, .i32⟩
  | .hbm, ⟨14, _⟩ => ⟨S65536x1x1, .i1⟩
  | .hbm, ⟨15, _⟩ => ⟨S1x1x1, .i32⟩
  | .hbm, ⟨16, _⟩ => ⟨S65536x1x1, .i32⟩
  | .hbm, ⟨17, _⟩ => ⟨S65536x1x1, .i1⟩
  | .hbm, ⟨18, _⟩ => ⟨S65536x1x1, .i1⟩
  | .hbm, ⟨19, _⟩ => ⟨S_, .i1⟩
  | .hbm, ⟨20, _⟩ => ⟨S65536x1, .i1⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536, .f32⟩
  | .hbm, ⟨26, _⟩ => ⟨S65536x1, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S65536x1024, .i1⟩
  | .hbm, ⟨32, _⟩ => ⟨S65536x1024, .f32⟩
  | .hbm, ⟨33, _⟩ => ⟨S65536x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S_, .f32⟩
  | .hbm, ⟨43, _⟩ => ⟨S65536, .f32⟩
  | .hbm, ⟨44, _⟩ => ⟨S65536, .f32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .f32⟩
  | .hbm, ⟨49, _⟩ => ⟨S65536, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_cst_0 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_1 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_2 : Ref sig .tc := ⟨.hbm, 50, rfl⟩
abbrev main_v24 : Ref sig .tc := ⟨.hbm, 51, rfl⟩
abbrev main_cst_3 : Ref sig .tc := ⟨.hbm, 52, rfl⟩
abbrev main_v25 : Ref sig .tc := ⟨.hbm, 53, rfl⟩

abbrev nD : Nat := 1
abbrev τ : Topo := Topo.v7x

variable {F : FTy → Type} [FloatOps F]

class Facts₀ : Prop where
  bcast_S65536_S65536x1_0 : S65536.BroadcastsInDim S65536x1 (![0] : Fin 1 → Fin S65536x1.rank)
  bcast_S_S65536x1 : S_.BroadcastsInDim S65536x1 (![] : Fin 0 → Fin S65536x1.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  h_S_ : 0 < S_.numel
  shapeCasts_S65536x1_S65536 : S65536x1.ShapeCasts S65536
  bcast_S65536x1_S65536x1024_0_1 : S65536x1.BroadcastsInDim S65536x1024 (![0, 1] : Fin 2 → Fin S65536x1024.rank)
  reducesTo_S65536x1024_S65536_d1 : S65536x1024.ReducesTo [1] S65536
  bcast_S_S65536 : S_.BroadcastsInDim S65536 (![] : Fin 0 → Fin S65536.rank)
  reducesTo_S65536_S_d0 : S65536.ReducesTo [0] S_
  gather_S65536x1024_S65536x1x1_S65536x1_n_1_0_0_1_2_11_wf : GatherDims.WF S65536x1024 S65536x1x1 S65536x1 [] [1] [0] [1] [0] 2 ![1, 1]

variable [Facts₀]

def gather_S65536x1024_S65536x1x1_S65536x1_n_1_0_0_1_2_11 : GatherDims S65536x1024 S65536x1x1 S65536x1 where
  offsetDims := []
  collapsedSliceDims := [1]
  operandBatchingDims := [0]
  startIndicesBatchingDims := [0]
  startIndexMap := [1]
  indexVectorDim := 2
  sliceSizes := ![1, 1]
  wf := gather_S65536x1024_S65536x1x1_S65536x1_n_1_0_0_1_2_11_wf

class Facts : Prop extends Facts₀ where

variable [Facts]
-- ==== Proof.Spec.lean ====
/-
  The mathematics both programs compute, stated once over the extended reals, with no program in sight.

  For a row `x : Fin 1024 → EReal` of logits and its true-class logit `t`, the per-row loss is
    ((Σ_k logaddexp(x k, t)) − (t + c_log2)) / 1023 − t,
  where logaddexp(a, t) is spelt max(a, t) + log1p(exp(−|a − t|)) and |d| is max(d, −d); c_log2 is the one
  f32 word both programs carry for log 2. The result of either program is the mean of the row losses.

  Three small facts join the two programs' spellings:
  * a sum weighted by a one-hot row picks one entry (0 · x = 0 on the extended reals, so no finiteness is needed);
  * 0 − a = −a;
  * the mean of a [65536, 128] array whose 128 lanes repeat the row's value is the mean of the 65536 row values:
    Σ_r Σ_l f r = 128 • Σ_r f r, and (128 • S) / 2^23 = S / 2^16 for every extended real S.
-/
import Idealize.ShloMosaic.PureOps.Ideal
import Idealize.ShloMosaic.PureOps.Ideal.Laws
import Idealize.ShloMosaic.Lib.ValueIdx

noncomputable section

namespace Cert.RowLoss

open Idealize.ShloMosaic Idealize.ShloMosaic.ValueIdx

/-- The f32 word 0x4B000000 is 2^23 = 8388608 = 65536 · 128. -/
theorem ofBits_2p23 : Ideal.ofBits .f32 0x4B000000#32 = ((8388608 : ℝ) : EReal) := by
  simp [Ideal.ofBits, Ideal.ieee, -EReal.coe_mul] <;> norm_num

/-- The f32 word 0x47800000 is 2^16 = 65536. -/
theorem ofBits_2p16 : Ideal.ofBits .f32 0x47800000#32 = ((65536 : ℝ) : EReal) := by
  simp [Ideal.ofBits, Ideal.ieee, -EReal.coe_mul] <;> norm_num

/-- log(e^a + e^t), as both programs spell it: the larger of the two plus log1p(exp(−|a − t|)). -/
def pairTerm (a t : EReal) : EReal :=
  max a t + Ideal.log1p (Ideal.exp (-(max (a - t) (-(a - t)))))

/-- The loss of one row of logits `x` whose true-class logit is `t`. -/
def rowLoss (x : Fin 1024 → EReal) (t : EReal) : EReal :=
  Ideal.div ((∑ k, pairTerm (x k) t) - (t + Ideal.ofBits .f32 0x3F317218#32)) (Ideal.ofBits .f32 0x447FC000#32) - t

/-- The entry of a row that the class index `w` names: the word read signed and clamped into [0, 1023], as a
    gather clamps its start index. -/
def trueLogit (x : Fin 1024 → EReal) (w : BitVec 32) : EReal := x ⟨min w.toInt.toNat 1023, by omega⟩

/-- The mean over the 65536 rows of the row losses: what both programs return. -/
def meanLoss (X : Fin 65536 → Fin 1024 → EReal) (W : Fin 65536 → BitVec 32) : EReal :=
  Ideal.div (0 + ∑ r : Fin 65536, rowLoss (X r) (trueLogit (X r) (W r))) ((65536 : ℝ) : EReal)

/-- A rank-1 index is its one coordinate, so a sum over the indices is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum weighted by the indicator of one index is the entry there. -/
theorem sum_mul_indicator {n : Nat} (x w : Fin n → EReal) (j : Fin n) (hw : ∀ k, w k = if k = j then 1 else 0) :
    ∑ k, x k * w k = x j := by
  rw [Finset.sum_eq_single j]
  · rw [hw j, if_pos rfl, mul_one]
  · intro k _ hk
    rw [hw k, if_neg hk, mul_zero]
  · intro h; exact absurd (Finset.mem_univ j) h

/-- n copies of ⊤ add up to ⊤, and of ⊥ to ⊥ (n ≥ 1). -/
theorem succ_nsmul_top (n : Nat) : (n + 1) • (⊤ : EReal) = ⊤ := by
  induction n with
  | zero => simp
  | succ n ih => rw [succ_nsmul, ih]; rfl

theorem succ_nsmul_bot (n : Nat) : (n + 1) • (⊥ : EReal) = ⊥ := by
  induction n with
  | zero => simp
  | succ n ih => rw [succ_nsmul, ih]; rfl

theorem nsmul_coe (n : Nat) (r : ℝ) : n • (r : EReal) = ((n * r : ℝ) : EReal) := by
  induction n with
  | zero => simp
  | succ n ih =>
    rw [succ_nsmul, ih, ← EReal.coe_add]
    congr 1
    push_cast; ring

/-- The mean over 65536 · 128 entries of an array whose lanes repeat the row value is the mean over the rows. -/
theorem mean_replicated (f : Fin 65536 → EReal) :
    Ideal.div (0 + ∑ r : Fin 65536, ∑ _l : Fin 128, f r) ((8388608 : ℝ) : EReal)
      = Ideal.div (0 + ∑ r : Fin 65536, f r) ((65536 : ℝ) : EReal) := by
  have h1 : ∀ r : Fin 65536, (∑ _l : Fin 128, f r) = 128 • f r := fun r => by
    rw [Finset.sum_const, Finset.card_univ, Fintype.card_fin]
  rw [Finset.sum_congr rfl (fun r _ => h1 r), Finset.sum_nsmul, zero_add, zero_add,
    Ideal.div_coe (by norm_num : (8388608 : ℝ) ≠ 0), Ideal.div_coe (by norm_num : (65536 : ℝ) ≠ 0)]
  generalize (∑ r : Fin 65536, f r) = S
  induction S using EReal.rec with
  | bot =>
    rw [show (128 : Nat) = 127 + 1 from rfl, succ_nsmul_bot,
      EReal.bot_mul_coe_of_pos (by norm_num), EReal.bot_mul_coe_of_pos (by norm_num)]
  | coe r =>
    rw [nsmul_coe, ← EReal.coe_mul, ← EReal.coe_mul]
    congr 1
    push_cast; ring
  | top =>
    rw [show (128 : Nat) = 127 + 1 from rfl, succ_nsmul_top,
      EReal.top_mul_coe_of_pos (by norm_num), EReal.top_mul_coe_of_pos (by norm_num)]

end Cert.RowLoss

end
-- ==== Proof.PreDecode.lean ====
/-
  The precondition, read back. Besides the finiteness of the logits it says that every class index lies in
  [0, 1024): the printed predicate ends in an `and` of two `jnp.all`s, the second over the 65536 words
  `0 ≤ idx ∧ idx < 1024` (signed comparisons). An all-reduction by `and` that is 1 had a 1 at every index, and a
  signed comparison that is 1 is the inequality of the words' integer values.

  A word in that range is fixed by the clamp max(0, ·) then min(1023, ·), is not below zero (so the reference's
  Python-style wrap-around leaves it alone), passes the reference's range test, and its integer value is its
  natural-number value, below 1024.
-/
import proofs.«425389_j59090160058685_2_alg».proof.Pre_finite_inputs
import proofs.«425389_j59090160058685_2_alg».proof.Proof.Gen.Pre_finite_inputs
import Idealize.ShloMosaic.PureOps.Ideal
import Idealize.ShloMosaic.Lib.Affine
import Idealize.ShloMosaic.Lib.ReduceAll
import Idealize.ShloMosaic.Lib.StableHlo.Predicate

noncomputable section

namespace Cert.ClassIndex

open Idealize.ShloMosaic Cert.Pre_finite_inputs

/-- A class index in range: its signed value is in [0, 1024). -/
def InRange (w : BitVec 32) : Prop := 0 ≤ w.toInt ∧ w.toInt < 1024

instance : Subsingleton S_.Idx := ⟨fun a b => funext fun d => d.elim0⟩

/-- The precondition gives every class index in range. -/
theorem inRange_of_pre (x0 : FVec Ideal S65536x1024 .f32) (x1 : IVec S65536 32)
    (h : Cert.Pre_finite_inputs.fn (F := Ideal) x0 x1 = fun _ => 1#1) (i : S65536.Idx) : InRange (x1 i) := by
  have e := congrFun h (fun a => a.elim0)
  dsimp only [Cert.Pre_finite_inputs.fn] at e
  obtain ⟨-, e9⟩ := IntOp.andi_eq_one.1 e
  have e8 := Host.reduce_andi_all _ _ _ _ _ e9 i
  obtain ⟨h5, h7⟩ := IntOp.andi_eq_one.1 e8
  have h5' : (0#32 : BitVec 32).toInt ≤ (x1 i).toInt := by
    have := IntOp.cmpi_sge.1 h5
    rwa [StableHlo.Predicate.bcast_scalar _ (by decide)] at this
  have h7' : (x1 i).toInt < (1024#32 : BitVec 32).toInt := by
    have := IntOp.cmpi_slt.1 h7
    rwa [StableHlo.Predicate.bcast_scalar _ (by decide)] at this
  have c0 : (0#32 : BitVec 32).toInt = 0 := by decide
  have c1 : (1024#32 : BitVec 32).toInt = 1024 := by decide
  exact ⟨by omega, by omega⟩

namespace InRange

variable {w : BitVec 32} (hw : InRange w)
include hw

theorem toNat_lt : w.toNat < 1024 := by
  obtain ⟨h0, h1⟩ := hw
  have := w.isLt
  unfold BitVec.toInt at h0 h1
  split at h0 <;> omega

theorem toInt_eq : w.toInt = (w.toNat : Int) := by
  obtain ⟨h0, h1⟩ := hw
  have := w.isLt
  unfold BitVec.toInt at h0 h1 ⊢
  split at h0 <;> split <;> omega

/-- The clamp to [0, 1023] leaves it alone. -/
theorem clamp_eq : IntOp.minsi 1023#32 (IntOp.maxsi 0#32 w) = w := by
  obtain ⟨h0, h1⟩ := hw
  have hmax : IntOp.maxsi 0#32 w = w := by
    unfold IntOp.maxsi
    rw [if_neg]
    rw [BitVec.slt_iff_toInt_lt]
    simp; omega
  rw [hmax]
  unfold IntOp.minsi
  rw [if_neg]
  rw [BitVec.slt_iff_toInt_lt]
  have : (1023#32 : BitVec 32).toInt = 1023 := by decide
  omega

end InRange

end Cert.ClassIndex

end
-- ==== Proof.RefValue.lean ====
/-
  The reference's result is the mean row loss.

  Under the precondition every class index w is in [0, 1024). Then the reference's take_along_axis reads, in row r,
  the logit at column w: its Python-style wrap-around (add 1024 to a negative index) does nothing, its range test
  0 ≤ w ≤ 1023 passes (so the NaN fill is not selected), and the gather's own clamp of the start index to [0, 1023]
  is the identity. The logaddexp's NaN guard compares a difference with itself, which on the extended reals is
  never "not equal", so the guarded branch is the plain max + log1p(exp(−|·|)) form. The rest is the same arithmetic,
  row by row, as the specification's.
-/
import proofs.«425389_j59090160058685_2_alg».proof.Proof.RefRead
import proofs.«425389_j59090160058685_2_alg».proof.Proof.Spec
import proofs.«425389_j59090160058685_2_alg».proof.Proof.PreDecode

noncomputable section

namespace Cert.ReferenceIdeal.RefValue

open Cert.ReferenceIdeal Cert.ReferenceIdeal.Gen Cert.ReferenceIdeal.ReadP
open Idealize.ShloMosaic Idealize.ShloMosaic.ValueIdx Cert.RowLoss Cert.ClassIndex

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = (1#1 : BitVec 1) from by decide]
    exact foldl_andi_one f l (fun n hn => h n (List.mem_cons.2 (Or.inr hn)))

variable (x0 : FVec Ideal S65536x1024 .f32) (x1 : IVec S65536 32) (hx1 : ∀ j : S65536.Idx, InRange (x1 j))

include hx1

/-- The wrap-around of a negative index leaves an index in range alone. -/
theorem wrapped_eq (i : S65536x1.Idx) : val_main_call0_v4 (F := Ideal) x1 i = x1 (idx_main_v0 i) := by
  rw [val_main_call0_v4_apply, val_main_call0_v1_apply, val_main_v0_apply, val_main_call0_v0_apply, val_main_call0_c_apply]
  have h := hx1 (idx_main_v0 i)
  have hlt : IntOp.cmpi .slt (x1 (idx_main_v0 i)) 0#32 = 0#1 :=
    eq_zero_of_ne_one (fun e => by
      have := IntOp.cmpi_slt.1 e
      have c0 : (0#32 : BitVec 32).toInt = 0 := by decide
      have := h.1
      omega)
  rw [hlt, select_zero]

/-- The start index the gather is given, at any index of the [65536, 1, 1] array, is the class index of its row. -/
theorem start_eq (i : S65536x1x1.Idx) :
    val_main_call0_v5 (F := Ideal) x1 i = x1 (idx_main_v0 (idx_main_call0_v5 i)) := by
  rw [val_main_call0_v5_apply, wrapped_eq x1 hx1]

/-- The reference's range test 0 ≤ w ≤ 1023 passes everywhere. -/
theorem range_test_one (i : S65536x1x1.Idx) : val_main_call0_v11 (F := Ideal) x1 i = 1#1 := by
  rw [val_main_call0_v11_apply, val_main_call0_v7_apply, val_main_call0_v10_apply, start_eq x1 hx1,
    val_main_call0_v6_apply, val_main_call0_c_2_apply, val_main_call0_v9_apply, val_main_call0_v8_apply,
    val_main_call0_c_1_apply]
  have h := hx1 (idx_main_v0 (idx_main_call0_v5 i))
  rw [IntOp.andi_eq_one]
  refine ⟨IntOp.cmpi_sge.2 ?_, IntOp.cmpi_sle.2 ?_⟩
  · have c0 : (0#32 : BitVec 32).toInt = 0 := by decide
    have := h.1
    omega
  · have c1 : (1023#32 : BitVec 32).toInt = 1023 := by decide
    have := h.2
    omega

/-- … so its `all` along the unit axis is 1 in every row: the gathered value, not the NaN fill, is selected. -/
theorem range_all_one (j : S65536x1.Idx) : val_main_call0_v12 (F := Ideal) x1 j = 1#1 := by
  unfold val_main_call0_v12
  rw [Host.reduce_eq_foldl]
  exact foldl_andi_one _ _ (fun n _ => range_test_one x1 hx1 n)

omit hx1 in
/-- The gather's dimension numbers: rows are batched (operand axis 0 with index axis 0), the class axis is indexed. -/
abbrev gd := gather_S65536x1024_S65536x1x1_S65536x1_n_1_0_0_1_2_11

omit hx1 in
/-- On the batched axis the gather reads the result's own row. -/
theorem batch_row (j : S65536x1.Idx) : gd.batchCoord j 0 = (j 0).val := by
  unfold GatherDims.batchCoord
  rw [dif_pos (by decide)]
  rfl

omit hx1 in
/-- The start-index position a result row reads has that row as its first coordinate. -/
theorem si_row (j : S65536x1.Idx) (c : Fin gd.startIndexMap.length) : (gd.siIdx j c 0).val = (j 0).val := by
  unfold GatherDims.siIdx
  rw [dif_neg (by decide)]
  rfl

omit hx1 in
/-- … so, back through the reshape and the broadcast, it is row r's class index that is read. -/
theorem row_of_si (r : Fin 65536) (c : Fin gd.startIndexMap.length) :
    idx_main_v0 (idx_main_call0_v5 (gd.siIdx (ix2 r (0 : Fin 1)) c)) = ix1 r := by
  funext b
  match b with
  | ⟨0, _⟩ =>
    apply Fin.ext
    show (((gd.siIdx (ix2 r (0 : Fin 1)) c 0).val * 1 + (gd.siIdx (ix2 r (0 : Fin 1)) c 1).val) * 1
      + (gd.siIdx (ix2 r (0 : Fin 1)) c 2).val) / 1 = r.val
    have h0 : (gd.siIdx (ix2 r (0 : Fin 1)) c 0).val = r.val := si_row _ c
    have h1 : (gd.siIdx (ix2 r (0 : Fin 1)) c 1).val < 1 := (gd.siIdx (ix2 r (0 : Fin 1)) c 1).isLt
    have h2 : (gd.siIdx (ix2 r (0 : Fin 1)) c 2).val < 1 := (gd.siIdx (ix2 r (0 : Fin 1)) c 2).isLt
    omega

/-- The gather reads, in row r, the logit at the class index's column. -/
theorem gathered (r : Fin 65536) :
    val_main_call0_v13 (F := Ideal) x0 x1 (ix2 r (0 : Fin 1)) = trueLogit (fun k => x0 (ix2 r k)) (x1 (ix1 r)) := by
  unfold val_main_call0_v13 Host.gather trueLogit
  refine congrArg x0 (funext fun a => Fin.ext ?_)
  match a with
  | ⟨0, _⟩ =>
    show gd.start (ix2 r (0 : Fin 1)) (val_main_call0_v5 (F := Ideal) x1) 0 + gd.batchCoord (ix2 r (0 : Fin 1)) 0
      + gd.offCoord (ix2 r (0 : Fin 1)) 0 = r.val
    rw [GatherDims.start_batching _ _ _ _ (by decide), GatherDims.offCoord_eq_zero _ _ _ (by decide), batch_row]
    show 0 + r.val + 0 = r.val
    omega
  | ⟨1, _⟩ =>
    show gd.start (ix2 r (0 : Fin 1)) (val_main_call0_v5 (F := Ideal) x1) 1 + gd.batchCoord (ix2 r (0 : Fin 1)) 1
      + gd.offCoord (ix2 r (0 : Fin 1)) 1 = min (x1 (ix1 r)).toInt.toNat 1023
    rw [GatherDims.batchCoord_eq_zero _ _ _ (by decide), GatherDims.offCoord_eq_zero _ _ _ (by decide)]
    unfold GatherDims.start
    rw [dif_pos (by decide), start_eq x1 hx1, row_of_si]
    rfl

/-- The reference's true-class logit of row r. -/
theorem true_logit (r : Fin 65536) :
    val_main_v2 (F := Ideal) x0 x1 (ix1 r) = trueLogit (fun k => x0 (ix2 r k)) (x1 (ix1 r)) := by
  rw [val_main_v2_apply, val_main_v1_apply, range_all_one x1 hx1, select_one]
  have e : idx_main_v2 (ix1 r) = ix2 r (0 : Fin 1) :=
    funext fun a => Fin.ext (by match a with | ⟨0, _⟩ => exact Nat.div_one _ | ⟨1, _⟩ => rfl)
  rw [e, gathered x0 x1 hx1]

/-- Broadcast along the row, it is the same at every column. -/
theorem true_logit_col (r : Fin 65536) (i : S65536x1.Idx) (hi : (i 0).val = r.val) :
    val_main_v3 (F := Ideal) x0 x1 i = trueLogit (fun k => x0 (ix2 r k)) (x1 (ix1 r)) := by
  rw [val_main_v3_apply]
  have e : idx_main_v3 i = ix1 r := funext fun a => Fin.ext (by match a with | ⟨0, _⟩ => exact hi)
  rw [e, true_logit x0 x1 hx1]

/-- One term of the row's sum: the NaN guard never fires, and what is left is the specification's pair term. -/
theorem pair_eq (r : Fin 65536) (k : Fin 1024) :
    val_main_v16 (F := Ideal) x0 x1 (ix2 r k)
      = pairTerm (x0 (ix2 r k)) (trueLogit (fun k => x0 (ix2 r k)) (x1 (ix1 r))) := by
  rw [val_main_v16_apply, val_main_v8_apply, val_main_v15_apply, val_main_v5_apply, val_main_v14_apply,
    val_main_v13_apply, val_main_v12_apply, val_main_v11_apply, val_main_v7_apply, val_main_v4_apply,
    val_main_v6_apply, true_logit_col x0 x1 hx1 r _ rfl]
  have hne : ∀ d : Ideal .f32, FloatOps.cmpf .une d d = 0#1 := fun d => by
    rw [Ideal.cmpf_def]; simp [Ideal.cmp]
  rw [hne, select_zero]
  simp only [pairTerm, Ideal.addf_def, Ideal.maximumf_def, Ideal.hostUnary_log1p_def, Ideal.hostUnary_exp_def,
    Ideal.hostNegf_def, Ideal.negf_def, Ideal.hostAbsf_def, Ideal.absf_def, Ideal.subf_def]

/-- The reference's loss of row r is the specification's. -/
theorem row_loss (r : Fin 65536) :
    val_main_v23 (F := Ideal) x0 x1 (ix1 r)
      = rowLoss (fun k => x0 (ix2 r k)) (trueLogit (fun k => x0 (ix2 r k)) (x1 (ix1 r))) := by
  rw [val_main_v23_apply, val_main_v22_apply, val_main_v20_apply, val_main_v19_apply, val_main_v17_apply,
    val_main_v21_apply, val_main_cst_1_apply, val_main_v18_apply, val_main_cst_0_apply, val_main_cst_apply,
    true_logit x0 x1 hx1]
  have e : ∀ k : Fin 1024, idx_main_v17 (ix1 r) k = ix2 r k := fun k =>
    funext fun a => Fin.ext (by match a with | ⟨0, _⟩ => rfl | ⟨1, _⟩ => rfl)
  simp only [e, pair_eq x0 x1 hx1, rowLoss, Ideal.ofBits_def, Ideal.ofBits_zero_f32, zero_add, Ideal.subf_def,
    Ideal.addf_def, Ideal.hostDivf_def]

/-- THE REFERENCE'S RESULT: the mean of the row losses. -/
theorem result_eq :
    val_main_v25 (F := Ideal) x0 x1 = fun _ => meanLoss (fun r k => x0 (ix2 r k)) (fun r => x1 (ix1 r)) := by
  funext i
  rw [val_main_v25_apply, val_main_v24_apply, val_main_cst_3_apply, val_main_cst_2_apply, sum_idx1]
  simp only [row_loss x0 x1 hx1, meanLoss, Ideal.hostDivf_def, Ideal.ofBits_def, Ideal.ofBits_zero_f32, ofBits_2p16]

end Cert.ReferenceIdeal.RefValue

end
-- ==== Proof.KernelBody.lean ====
/-
  The kernel body's stored value, read at an index (p, l) of its [1024, 128] output block.

  The body builds, per row p of its [1024, 1024] block of logits, the true-class logit as a one-hot weighted lane
  sum: the weight at column k is the integer 1 if k equals the row's class index and 0 otherwise, converted to a
  float, so the sum picks the entry at the class index. The rest is the row loss of the specification, the row's
  value replicated across the 128 lanes; the body's "0 − |d|" is the specification's "−|d|".
-/
import proofs.«425389_j59090160058685_2_alg».proof.Proof.Gen.KernelIdeal.Skeleton
import proofs.«425389_j59090160058685_2_alg».proof.Proof.Spec
import proofs.«425389_j59090160058685_2_alg».proof.Proof.PreDecode
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.RowLoss Cert.ClassIndex

section Layout
variable {α : Type}

/-- A column [1024, 1] broadcast along its unit axis to [1024, b] reads the row's one entry. -/
theorem bcast_col_apply {b : Nat} (x : (⟨2, ![1024, 1]⟩ : Shape).Idx → α)
    (h : (⟨2, ![1024, 1]⟩ : Shape).Broadcasts ⟨2, ![1024, b]⟩) (p : Fin 1024) (q : Fin b) :
    broadcastTo ⟨2, ![1024, b]⟩ x h (ix2 p q) = x (ix2 p (0 : Fin 1)) :=
  broadcastTo_apply x h (ix2 p q) (ix2 p (0 : Fin 1)) (fun d => match d with
    | ⟨0, _⟩ => by show p.val = if (1024 : Nat) = 1 then 0 else p.val; rw [if_neg (by decide)]
    | ⟨1, _⟩ => by show 0 = if (1 : Nat) = 1 then 0 else q.val; rw [if_pos rfl])

/-- A vector [1024] cast to a column [1024, 1] reads entry p at (p, 0). -/
theorem cast_col_apply (x : (⟨1, ![1024]⟩ : Shape).Idx → α)
    (h : (⟨1, ![1024]⟩ : Shape).ShapeCasts ⟨2, ![1024, 1]⟩) (p : Fin 1024) :
    shapeCast ⟨2, ![1024, 1]⟩ x h (ix2 p (0 : Fin 1)) = x (ix1 p) :=
  shapeCast_apply x h (ix2 p (0 : Fin 1)) (ix1 p) (by
    rewrite [Shape.rowMajor_val_one, Shape.rowMajor_val_two]; show p.val = p.val * 1 + 0; omega)

end Layout

/-- The lane sum of a [1024, 1024] block, read at row p: the sum over the 1024 columns. -/
theorem rowsum_ideal (src : S1024x1024.Idx → EReal) (h : S1024x1024.Reduces [1] S1024) (p : Fin 1024) :
    Ideal.reduceAdd h src (ix1 p) = ∑ k : Fin 1024, src (ix2 p k) := by
  refine (Ideal.reduceAdd_single h src (ix1 p)).trans ?_
  refine Finset.sum_congr rfl fun k _ => congrArg src (funext fun a => Fin.ext ?_)
  match a with
  | ⟨0, _⟩ => rfl
  | ⟨1, _⟩ => rfl

theorem absf_at {s : Shape} (x : FVec Ideal s .f32) (i : s.Idx) : absf x i = max (x i) (-(x i)) := rfl
theorem exp_at {s : Shape} (x : FVec Ideal s .f32) (i : s.Idx) : exp x i = Ideal.exp (x i) := rfl
theorem log1p_at {s : Shape} (x : FVec Ideal s .f32) (i : s.Idx) : log1p x i = Ideal.log1p (x i) := rfl
theorem cmpi_at {s : Shape} {w : Nat} (p : CmpIPredicate) (x y : IVec s w) (i : s.Idx) :
    cmpi p x y i = IntOp.cmpi p (x i) (y i) := rfl
theorem sitofp_at {s : Shape} {w : Nat} (x : IVec s w) (i : s.Idx) :
    (sitofp .f32 x : FVec Ideal s .f32) i = (((x i).toInt : ℝ) : EReal) := rfl

/-- The one-hot weight at column k against the class index w: the integer 1 when k is w, else 0, as a float. -/
theorem onehot_weight (w : BitVec 32) (hw : InRange w) (k : Fin 1024) :
    (((((IntOp.cmpi .eq (BitVec.ofNat 32 k.val) w).setWidth 32).toInt : ℝ) : EReal))
      = if k = (⟨w.toNat, hw.toNat_lt⟩ : Fin 1024) then 1 else 0 := by
  by_cases hk : k = ⟨w.toNat, hw.toNat_lt⟩
  · have e : IntOp.cmpi .eq (BitVec.ofNat 32 k.val) w = 1#1 := IntOp.cmpi_eq.2 (by subst hk; simp)
    rw [e, if_pos hk]
    have : ((1#1 : BitVec 1).setWidth 32).toInt = 1 := by decide
    rw [this]; simp
  · have e : IntOp.cmpi .eq (BitVec.ofNat 32 k.val) w = 0#1 := eq_zero_of_ne_one (fun e => hk (by
      have h1 := IntOp.cmpi_eq.1 e
      apply Fin.ext
      show k.val = w.toNat
      rw [← h1, BitVec.toNat_ofNat]
      have := k.isLt
      omega))
    rw [e, if_neg hk]
    have : ((0#1 : BitVec 1).setWidth 32).toInt = 0 := by decide
    rw [this]; simp

/-- The lane iota of the [1024, 1024] block at (p, k) is the column k. -/
theorem iota_col (p k : Fin 1024) :
    iota .tc S1024x1024 32 ([1] : List (Fin 2)) iota_S1024x1024_d1_w32 (ix2 p k) = BitVec.ofNat 32 k.val :=
  iota_single_apply .tc S1024x1024 32 (1 : Fin 2) iota_S1024x1024_d1_w32 (ix2 p k)

/-- A sum weighted by the indicator of column j is the entry at j. -/
theorem pick (x : Fin 1024 → EReal) (j : Fin 1024) : ∑ k, x k * (if k = j then (1 : EReal) else 0) = x j :=
  sum_mul_indicator x _ j (fun _ => rfl)

variable (v0 : Vec Ideal S1024x1024 .f32) (v1 : Vec Ideal S1024x1 .i32)

/-- THE STORED VALUE at (p, l): the row loss of row p, whatever the lane l. -/
theorem payload_apply (p : Fin 1024) (l : Fin 128) (hw : InRange (v1 (ix2 p (0 : Fin 1)))) :
    k0_pay1 (F := Ideal) v0 v1 (ix2 p l)
      = rowLoss (fun k => v0 (ix2 p k)) (trueLogit (fun k => v0 (ix2 p k)) (v1 (ix2 p (0 : Fin 1)))) := by
  unfold k0_pay1
  simp only [multiReduction, Ideal.reduceAdd_def, bcast_col_apply, cast_col_apply, rowsum_ideal, shapeCast_self, subf_apply, divf_apply, addf_apply,
    mulf_apply, maximumf_apply, broadcast_apply, absf_at, exp_at, log1p_at, sitofp_at, extui_apply, cmpi_at,
    iota_col, onehot_weight _ hw, pick (fun k => v0 (ix2 p k))]
  have hj : (⟨min (v1 (ix2 p (0 : Fin 1))).toInt.toNat 1023, by omega⟩ : Fin 1024)
      = ⟨(v1 (ix2 p (0 : Fin 1))).toNat, hw.toNat_lt⟩ :=
    Fin.ext (by
      have h1 := hw.toInt_eq
      have h2 := hw.toNat_lt
      show min (v1 (ix2 p (0 : Fin 1))).toInt.toNat 1023 = (v1 (ix2 p (0 : Fin 1))).toNat
      rw [h1]; omega)
  simp only [rowLoss, pairTerm, trueLogit, hj, Ideal.ofBits_def, Ideal.ofBits_zero_f32, zero_sub]

end Cert.KernelIdeal.Body

end
-- ==== Proof.KernelValue.lean ====
/-
  The kernel's result is the mean row loss.

  The region: window 0 stages rows 1024·t … 1024·t + 1023 of the logits, window 1 the same rows of the class-index
  column (the argument clamped to [0, 1023] by the host operations before the region; under the precondition the
  clamp is the identity), and the body stores, at (p, l) of its [1024, 128] output block, the loss of row
  1024·t + p. So what point t writes back is block t of ONE [65536, 128] array whose every lane of row r holds
  row r's loss, and the 64 blocks tile that array.
  After the region the host sums all 65536 · 128 entries and divides by 2^23: the mean over the rows.
-/
import proofs.«425389_j59090160058685_2_alg».proof.Proof.Gen.KernelIdeal.Frame
import proofs.«425389_j59090160058685_2_alg».proof.Proof.KernelBody
import proofs.«425389_j59090160058685_2_alg».proof.Proof.Spec
import proofs.«425389_j59090160058685_2_alg».proof.Proof.PreDecode
import Idealize.ShloMosaic.Lib.Pipeline.Value
import Idealize.ShloMosaic.Lib.StableHlo.Run
import Idealize.ShloMosaic.Lib.StableHlo.Predicate
import Idealize.ShloMosaic.Lib.ValueIdx
import Idealize.ShloMosaic.Lib.Tactic

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx Cert.RowLoss Cert.ClassIndex Cert.KernelIdeal.Body
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The class-index column as the region finds it: the argument clamped to [0, 1023] and reshaped to a column. -/
theorem clipped (c : Dev nD) :
    (V m c main_v1 : S65536x1.Idx → BitVec 32)
      = shapeCast S65536x1 (minsi (broadcastInDim S65536 ![] bcast_S_S65536 (constantI S_ 32 1023#32))
          (maxsi (broadcastInDim S65536 ![] bcast_S_S65536 (constantI S_ 32 0#32)) (m ((c : Thread nD τ).loc main_arg1))))
          shapeCasts_S65536_S65536x1 := by
  dsimp only [V, V0]
  simp only [hostOps0, hostOps0_1, hostOps0_2, List.flatten_cons, List.flatten_nil, List.append_nil, List.cons_append,
    List.nil_append]
  after_results
  first
  | rfl
  | (simp only [TRef.ofBuf, TRef.toBuf, cast_eq]; rfl)

/-- The printed index maps, decided over the 64 grid points: block t of every window is at block-row t, block-column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of block t is row 1024·t + p of the array. -/
def grow (t : Fin cfg0.N) (p : Fin 1024) : Fin 65536 :=
  ⟨1024 * t.val + p.val, by have := t.isLt; have hN : cfg0.N = 64 := N_0; omega⟩

theorem blk0_read (c : Dev nD) (t : Fin cfg0.N) (p k : Fin 1024) :
    (iblk m c 0 t : Vec Ideal S1024x1024 .f32) (ix2 p k) = m ((c : Thread nD τ).loc main_arg0) (ix2 (grow t p) k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = 1024 * t.val + p.val; rw [e0]; omega
  | ⟨1, _⟩ => show win0_0.index t (1 : Fin 2) * 1024 + 1 * k.val = k.val; rw [e1]; omega

theorem blk1_read (c : Dev nD) (t : Fin cfg0.N) (p : Fin 1024) :
    (iblk m c 1 t : Vec Ideal S1024x1 .i32) (ix2 p (0 : Fin 1)) = V m c main_v1 (ix2 (grow t p) (0 : Fin 1)) := by
  obtain ⟨-, -, e0, e1, -⟩ := idx_facts t
  show V m c main_v1 (((cfg0.win 1).blk t).view.emb (ix2 p (0 : Fin 1))) = _
  refine congrArg (V m c main_v1) (funext fun a => Fin.ext ?_)
  match a with
  | ⟨0, _⟩ => show win0_1.index t (0 : Fin 2) * 1024 + 1 * p.val = 1024 * t.val + p.val; rw [e0]; omega
  | ⟨1, _⟩ => show win0_1.index t (1 : Fin 2) * 1 + 1 * 0 = 0; rw [e1]

theorem blk2_emb (t : Fin cfg0.N) (p : Fin 1024) (l : Fin 128) :
    ((cfg0.win 2).blk t).view.emb (ix2 p l) = ix2 (grow t p) l := by
  obtain ⟨-, -, -, -, e0, e1⟩ := idx_facts t
  funext a
  apply Fin.ext
  match a with
  | ⟨0, _⟩ => show win0_2.index t (0 : Fin 2) * 1024 + 1 * p.val = 1024 * t.val + p.val; rw [e0]; omega
  | ⟨1, _⟩ => show win0_2.index t (1 : Fin 2) * 128 + 1 * l.val = l.val; rw [e1]; omega

/-- An index of the output array is in point t's block iff each coordinate is in the block's range on its axis. -/
theorem mem_blk (t : Fin cfg0.N) (i : S65536x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v2).slice (win0_2.rect t)).set ↔ _
  rw [View.set_slice_whole, Rect.mem_set_unit]
  exact Iff.rfl

/-- The 64 blocks tile the output array: row i is in block i / 1024. -/
theorem cover (i : S65536x128.Idx) :
    ∃ t : Fin cfg0.N, (cfg0.win 2).flush t = true ∧ i ∈ ((cfg0.win 2).blk t).view.set := by
  have hN : cfg0.N = 64 := N_0
  have hi0 : (i 0).val < 65536 := (i 0).isLt
  have hi1 : (i 1).val < 128 := (i 1).isLt
  obtain ⟨-, -, -, -, e0, e1⟩ := idx_facts ⟨(i 0).val / 1024, by omega⟩
  refine ⟨⟨(i 0).val / 1024, by omega⟩, flush0_2 _, ?_⟩
  rw [mem_blk]
  intro a
  match a with
  | ⟨0, _⟩ =>
    show win0_2.index _ (0 : Fin 2) * 1024 ≤ (i 0).val ∧ (i 0).val < win0_2.index _ (0 : Fin 2) * 1024 + 1024
    rw [e0]; show (i 0).val / 1024 * 1024 ≤ (i 0).val ∧ (i 0).val < (i 0).val / 1024 * 1024 + 1024; omega
  | ⟨1, _⟩ =>
    show win0_2.index _ (1 : Fin 2) * 128 ≤ (i 1).val ∧ (i 1).val < win0_2.index _ (1 : Fin 2) * 128 + 128
    rw [e1]; omega

/-! ## What the region writes, and the host operations after it -/

variable (hx1 : ∀ (c : Dev nD) (j : S65536.Idx), InRange (m ((c : Thread nD τ).loc main_arg1) j))

include hx1 in
/-- Under the precondition the clamp does nothing: the column holds the class indices themselves. -/
theorem clipped_apply (c : Dev nD) (r : Fin 65536) :
    V m c main_v1 (ix2 r (0 : Fin 1)) = m ((c : Thread nD τ).loc main_arg1) (ix1 r) := by
  refine (congrFun (clipped m c) (ix2 r (0 : Fin 1))).trans ?_
  rw [shapeCast_apply _ shapeCasts_S65536_S65536x1 (ix2 r (0 : Fin 1)) (ix1 r) (by
    rewrite [Shape.rowMajor_val_one, Shape.rowMajor_val_two]; show r.val = r.val * 1 + 0; omega)]
  show IntOp.minsi (broadcastInDim S65536 ![] bcast_S_S65536 (constantI S_ 32 1023#32) (ix1 r))
    (IntOp.maxsi (broadcastInDim S65536 ![] bcast_S_S65536 (constantI S_ 32 0#32) (ix1 r))
      (m ((c : Thread nD τ).loc main_arg1) (ix1 r))) = _
  rw [StableHlo.Predicate.bcast_scalar _ (by decide), StableHlo.Predicate.bcast_scalar _ (by decide)]
  exact (hx1 c (ix1 r)).clamp_eq

/-- The [65536, 128] array the region leaves: every lane of row r holds row r's loss. -/
def outArr (c : Dev nD) : S65536x128.Idx → EReal := fun i =>
  rowLoss (fun k => m ((c : Thread nD τ).loc main_arg0) (ix2 (⟨(i 0).val, (i 0).isLt⟩ : Fin 65536) k))
    (trueLogit (fun k => m ((c : Thread nD τ).loc main_arg0) (ix2 (⟨(i 0).val, (i 0).isLt⟩ : Fin 65536) k))
      (m ((c : Thread nD τ).loc main_arg1) (ix1 (⟨(i 0).val, (i 0).isLt⟩ : Fin 65536))))

include hx1 in
/-- What grid point t writes back is block t of that array. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold out0_2
  rw [View.canon_unit_zero hz]
  simp only [View.ld_unit_zero (S := S1024x1024) hz, View.ld_unit_zero (S := S1024x1) hz]
  have key : ∀ j : S1024x128.Idx, k0_pay1 (F := Ideal) (iblk m c 0 t) (iblk m c 1 t) j
      = outArr m c (((cfg0.win 2).blk t).view.emb j) := by
    intro j
    obtain ⟨p, l, rfl⟩ : ∃ (p : Fin 1024) (l : Fin 128), j = ix2 p l := ⟨j 0, j 1, eq_ix2 j⟩
    rw [blk2_emb]
    have hw : InRange ((iblk m c 1 t : Vec Ideal S1024x1 .i32) (ix2 p (0 : Fin 1))) := by
      rw [blk1_read, clipped_apply m hx1]; exact hx1 c _
    refine (payload_apply (iblk m c 0 t) (iblk m c 1 t) p l hw).trans ?_
    simp only [blk0_read, blk1_read, clipped_apply m hx1]
    rfl
  funext j
  exact key j

include hx1 in
/-- So the output array ends holding it: the 64 blocks tile the array. -/
theorem final (c : Dev nD) : (dats m 0 c).arrAt 2 cfg0.N = outArr m c :=
  (dats m 0 c).arrAt_eq_of_cover 2 (outArr m c) (fun t _ => flushed_eq m hx1 c t) cover

/-- The host operations after the region: the sum of all 65536 · 128 entries over 2^23. -/
theorem tail_value (out : S65536x128.Idx → EReal) :
    Host.divf (F := Ideal) (Host.reduceAdd (F := Ideal) out (constant (F := Ideal) S_ .f32 0x00000000#32)
        reducesTo_S65536x128_S_d0_1 h_S_) (constant (F := Ideal) S_ .f32 0x4B000000#32)
      = fun _ => Ideal.div (0 + ∑ i, out i) ((8388608 : ℝ) : EReal) := by
  funext i
  show FloatOps.hostDivf (Host.reduceAdd (F := Ideal) out (constant (F := Ideal) S_ .f32 0x00000000#32)
    reducesTo_S65536x128_S_d0_1 h_S_ i) (FloatOps.ofBits (F := Ideal) .f32 0x4B000000#32) = _
  simp only [Host.reduceAdd, Ideal.hostReduceAdd_def, Ideal.hostDivf_def, Ideal.ofBits_def, ofBits_2p23]
  rw [Ideal.hostReduceAdd_total reducesTo_S65536x128_S_d0_1 (fun b => b.elim0)]
  show Ideal.div (Ideal.ofBits .f32 0x00000000#32 + ∑ i, out i) _ = _
  rw [Ideal.ofBits_zero_f32]

include hx1 in
/-- THE KERNEL'S RESULT: the mean of the row losses. -/
theorem result_eq (c : Dev nD) :
    Pipeline.afterTail₀ cfgs (dats m) 0 (V0 m) [hostOps1] c main_v4
      = fun _ => meanLoss (fun r k => m ((c : Thread nD τ).loc main_arg0) (ix2 r k))
          (fun r => m ((c : Thread nD τ).loc main_arg1) (ix1 r)) := by
  unfold Pipeline.afterTail₀
  show StableHlo.after hostOps1 _ (Proc.devRef .tc main_v4) = _
  after_results
  rw [show Pipeline.withArrays (cfgs 0).spec c (V0 m c) (fun w => (dats m 0 c).arrAt w (cfgs 0).N)
      (Proc.devRef .tc main_v2) = outArr m c from
    (Pipeline.withArrays_arr spec0 launch0.win.arr_inj c _ _ 2).trans (final m hx1 c)]
  rw [tail_value]
  funext _
  unfold meanLoss
  rw [sum_idx2]
  exact mean_replicated (fun r => rowLoss (fun k => m ((c : Thread nD τ).loc main_arg0) (ix2 r k))
    (trueLogit (fun k => m ((c : Thread nD τ).loc main_arg0) (ix2 r k)) (m ((c : Thread nD τ).loc main_arg1) (ix1 r))))

end Cert.KernelIdeal.KValue

end
-- ==== Proof.lean ====
/-
  The certificate of `Cert.Claim`: the tuple-max loss kernel against its jnp reference, over the extended reals.

  Both programs compute, per row r of the [65536, 1024] logits with class index w_r, the loss
    ((Σ_k logaddexp(x_rk, t_r)) − (t_r + c_log2)) / 1023 − t_r,   t_r = x_r[w_r],
  and return the mean over the rows. The kernel finds t_r by a one-hot weighted lane sum after clamping w_r to
  [0, 1023], writes the row's loss into all 128 lanes of a [65536, 128] array and takes the mean over all 2^23
  entries; the reference gathers t_r (wrapping a negative index, filling NaN outside [−1024, 1024)) and takes the
  mean over the 65536 rows. Under the precondition (finite logits, every class index in [0, 1024)) the clamp, the
  wrap-around and the range test are all the identity, and Σ_r Σ_l f r / 2^23 = Σ_r f r / 2^16 on the extended reals.

  The three frames are the programs' runs with the results dropped; the idealization rewrote nothing, so the
  `preserves` conjunct is `True`.
-/
import proofs.«425389_j59090160058685_2_alg».proof.Defs
import proofs.«425389_j59090160058685_2_alg».proof.Proof.Gen.Kernel
import proofs.«425389_j59090160058685_2_alg».proof.Proof.Gen.Kernel.Frame
import proofs.«425389_j59090160058685_2_alg».proof.Proof.Gen.KernelIdeal
import proofs.«425389_j59090160058685_2_alg».proof.Proof.Gen.KernelIdeal.Frame
import proofs.«425389_j59090160058685_2_alg».proof.Proof.Gen.ReferenceIdeal
import proofs.«425389_j59090160058685_2_alg».proof.Proof.Gen.Pre_finite_inputs
import proofs.«425389_j59090160058685_2_alg».proof.Proof.RefRun
import proofs.«425389_j59090160058685_2_alg».proof.Proof.RefRead
import proofs.«425389_j59090160058685_2_alg».proof.Proof.RefValue
import proofs.«425389_j59090160058685_2_alg».proof.Proof.PreDecode
import proofs.«425389_j59090160058685_2_alg».proof.Proof.KernelValue

noncomputable section

namespace Cert.Proof

open Idealize.ShloMosaic Idealize.ShloMosaic.TcCoe Idealize.SL.Sem
open Idealize.ShloMosaic.ValueIdx Cert.RowLoss Cert.ClassIndex

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.ValueP.run (F := Ideal) m ρ)

/-- The kernel's run, read: its result is the mean row loss of its arguments, which end unchanged. -/
theorem kernel_run (m : (ℓ : Loc Cert.KernelIdeal.nD Cert.KernelIdeal.τ Cert.KernelIdeal.sig) → Buf (Elt Ideal) ℓ)
    (ρ : Dev Cert.KernelIdeal.nD → PrngReg)
    (hx1 : ∀ (c : Dev Cert.KernelIdeal.nD) (j : Cert.KernelIdeal.S65536.Idx),
      InRange (m ((c : Thread Cert.KernelIdeal.nD Cert.KernelIdeal.τ).loc Cert.KernelIdeal.main_arg1) j)) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v4)
          = (fun _ => meanLoss
              (fun r k => m ((c.tc : Thread Cert.KernelIdeal.nD Cert.KernelIdeal.τ).loc Cert.KernelIdeal.main_arg0) (ix2 r k))
              (fun r => m ((c.tc : Thread Cert.KernelIdeal.nD Cert.KernelIdeal.τ).loc Cert.KernelIdeal.main_arg1) (ix1 r)))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v4 (Pipeline.mem_restRefs_of Cert.KernelIdeal.main_v4 (by decide) (by decide))).trans
        (Cert.KernelIdeal.KValue.result_eq m hx1 c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m ρ)

/-- The two idealized programs return the same mean row loss. -/
theorem algebraic : Cert.algebraic_KernelIdeal_ReferenceIdeal := by
  intro m ρ m' ρ' hpre hagree
  have hx1 : ∀ (c : Dev Cert.KernelIdeal.nD) (j : Cert.KernelIdeal.S65536.Idx),
      InRange (m ((c : Thread Cert.KernelIdeal.nD Cert.KernelIdeal.τ).loc Cert.KernelIdeal.main_arg1) j) :=
    fun c j => inRange_of_pre _ _ (hpre c) j
  refine ⟨_, kernel_run m ρ hx1, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v25_eq,
    Cert.ReferenceIdeal.RefValue.result_eq _ _ (fun j => by rw [(hagree c).2]; exact hx1 c j),
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
